-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v14 : FVec F S8192 .f32) (main_v15 : FVec F S8192 .f32) : IVec S_ 1 :=
  let main_v16 : IVec S8192 1 := cmpf .ogt main_v14 main_v15
  let main_c_6 : IVec S_ 1 := constantI S_ 1 1#1
  let main_v17 : IVec S_ 1 := (fun x v => Host.reduce IntOp.andi x v reducesTo_S8192_S_d0 h_S_) main_v16 main_c_6
  let main_v18 : IVec S_ 1 := andi main_v13 main_v17
  main_v18

def fn {F : FTy → Type} [FloatOps F] (main_arg0 : FVec F S8192x512 .f32) (main_arg1 : FVec F S8192x8192 .f32) (main_arg2 : FVec F S512x256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_cst_4 : FVec F S_ .f32 := constant S_ .f32 0x00000000#32
  let main_v14 : FVec F S8192 .f32 := (fun x v => Host.reduceAdd x v reducesTo_S8192x8192_S8192_d1 h_S_) main_arg1 main_cst_4
  let main_cst_5 : FVec F S_ .f32 := constant S_ .f32 0x00000000#32
  let main_v15 : FVec F S8192 .f32 := broadcastInDim S8192 ![] bcast_S_S8192 main_cst_5
  fn_part1 (F := F) main_v13 main_v14 main_v15
-- ==== Kernel.lean ====
abbrev S8192x512 : Shape := ⟨2, ![8192, 512]⟩
abbrev S8192x8192 : Shape := ⟨2, ![8192, 8192]⟩
abbrev S512x256 : Shape := ⟨2, ![512, 256]⟩
abbrev S8192x1 : Shape := ⟨2, ![8192, 1]⟩
abbrev S512x8192 : Shape := ⟨2, ![512, 8192]⟩
abbrev S512x1 : Shape := ⟨2, ![512, 1]⟩
abbrev S512 : Shape := ⟨1, ![512]⟩
abbrev S8192x256 : Shape := ⟨2, ![8192, 256]⟩
abbrev S1024x512 : Shape := ⟨2, ![1024, 512]⟩
abbrev S1024x1 : Shape := ⟨2, ![1024, 1]⟩
abbrev S1024x256 : Shape := ⟨2, ![1024, 256]⟩
abbrev S256x8192 : Shape := ⟨2, ![256, 8192]⟩
abbrev S256x1 : Shape := ⟨2, ![256, 1]⟩
abbrev S256x256 : Shape := ⟨2, ![256, 256]⟩

abbrev nBuf : Space → Nat
  | .hbm => 6
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S8192x1, .f32⟩
  | .hbm, ⟨4, _⟩ => ⟨S8192x256, .bf16⟩
  | .hbm, ⟨5, _⟩ => ⟨S8192x256, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S1024x512, .f32⟩
  | .local _ .vmem, ⟨5, _⟩ => ⟨S1024x512, .f32⟩
  | .local _ .vmem, ⟨6, _⟩ => ⟨S512x256, .f32⟩
  | .local _ .vmem, ⟨7, _⟩ => ⟨S1024x1, .f32⟩
  | .local _ .vmem, ⟨8, _⟩ => ⟨S1024x1, .f32⟩
  | .local _ .vmem, ⟨9, _⟩ => ⟨S1024x256, .bf16⟩
  | .local _ .vmem, ⟨10, _⟩ => ⟨S1024x256, .bf16⟩
  | .local _ .vmem, ⟨11, _⟩ => ⟨S256x8192, .f32⟩
  | .local _ .vmem, ⟨12, _⟩ => ⟨S256x8192, .f32⟩
  | .local _ .vmem, ⟨13, _⟩ => ⟨S8192x256, .bf16⟩
  | .local _ .vmem, ⟨14, _⟩ => ⟨S256x1, .f32⟩
  | .local _ .vmem, ⟨15, _⟩ => ⟨S256x1, .f32⟩
  | .local _ .vmem, ⟨16, _⟩ => ⟨S256x256, .f32⟩
  | .local _ .vmem, ⟨17, _⟩ => ⟨S256x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def k2_mult1 (i : grid2.Coords) : BitVec 32 :=
  let arg0 : BitVec 32 := BitVec.ofNat 32 (i 0).val
  let c256_i32 : BitVec 32 := 256#32
  let v5 : BitVec 32 := Scalar.muli arg0 c256_i32
  v5
def k2_off1 (i : grid2.Coords) : Fin 2 → Nat :=
  let arg0 : BitVec 32 := BitVec.ofNat 32 (i 0).val
  let c256_i32 : BitVec 32 := 256#32
  let v5 : BitVec 32 := Scalar.muli arg0 c256_i32
  let v6 : BitVec 32 := v5
  let v7 : Index := Scalar.indexCast v6
  let c0_3 : Index := 0#32
  ![v7.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S256x8192_S256x8192_0_0 : ∀ a, (![0, 0] : Fin 2 → Nat) a + S256x8192.size a ≤ S256x8192.size a
  h_S256x8192 : 0 < S256x8192.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  inb_S256x256_S256x256_0_0 : ∀ a, (![0, 0] : Fin 2 → Nat) a + S256x256.size a ≤ S256x256.size a
  dot_S1024x512_S512x256_S1024x256_1_0_0_1_n_n_wf : DotDims.WF S1024x512 S512x256 S1024x256 [1] [0] [0] [1] [] []
  dot_S256x8192_S8192x256_S256x256_1_0_0_1_n_n_wf : DotDims.WF S256x8192 S8192x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .bf16 = 32 ∨ (Rect.block (s := S8192x256) S1024x256.size (cc1_transform_3 i) (hinb1_3 i)).WholeWords (EltTy.packing .bf16)
  hrank2 : 0 < grid2.rank
  k2_mult1_dvd : ∀ i : grid2.Coords, 256 ∣ (k2_mult1 i).toNat
  k2_off1_inb : ∀ i : grid2.Coords, ∀ a, (k2_off1 i) a + S256x256.size a ≤ S8192x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S8192x8192.size a
  hwx2_0 : ∀ i : grid2.Coords, EltTy.bits .f32 = 32 ∨ (Rect.block (s := S8192x8192) S256x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .bf16 = 32 ∨ (Rect.block (s := S8192x256) S8192x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S8192x1.size a
  hwx2_2 : ∀ i : grid2.Coords, EltTy.bits .f32 = 32 ∨ (Rect.block (s := S8192x1) S256x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S8192x256.size a
  hwx2_3 : ∀ i : grid2.Coords, EltTy.bits .f32 = 32 ∨ (Rect.block (s := S8192x256) S256x256.size (cc2_transform_3 i) (hinb2_3 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S256x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S256x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x256 : Shape := ⟨2, ![8192, 256]⟩

abbrev nBuf : Space → Nat
  | .hbm => 25
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S8192x8192, .i32⟩
  | .hbm, ⟨7, _⟩ => ⟨S8192x8192, .i32⟩
  | .hbm, ⟨8, _⟩ => ⟨S_, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S8192x8192, .f32⟩
  | .hbm, ⟨13, _⟩ => ⟨S8192x8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S1x8192, .f32⟩
  | .hbm, ⟨18, _⟩ => ⟨S8192x8192, .f32⟩
  | .hbm, ⟨19, _⟩ => ⟨S8192x8192, .f32⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S8192x256, .f32⟩
  | .hbm, ⟨24, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_cst : Ref sig .tc := ⟨.hbm, 22, rfl⟩
abbrev main_call0_v0 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x256 : S_.BroadcastsInDim S8192x256 (![] : Fin 0 → Fin S8192x256.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Spec.lean ====
/-
  The graph convolution  relu (D^(-1/2) (A + I) D^(-1/2) (X W)),  D = diag (row sums of A),  as functions of the three
  argument arrays over the extended reals, index by index, in the two arrangements that are compared:

  * three passes: the row sums `degArr A`; then  P = D^(-1/2) (X W)  (`xwpArr`); then
    relu (D^(-1/2) (A P + P))  (`outArr`), the identity's term added as  P  itself;
  * one pass (`refArr`): the matrix  D^(-1/2) (A + I) D^(-1/2)  formed entry by entry and multiplied with  X W.

  The two agree (`kernelArr_eq_refArr`) where every entry is a real number and every row sum is positive: then every
  inverse square root is a positive real, every term is a real, and the identity is distributivity of the reals,
      sum_j (s_i (a_ij + [i = j]) s_j) p_j  =  s_i (sum_j a_ij (s_j p_j) + s_i p_i).
  (Over the extended reals distributivity fails at the infinities, which is why the hypotheses are needed: a row that
  sums to zero has inverse square root +inf.)
-/
import Idealize.ShloMosaic.Lib.ValueIdx
import Idealize.ShloMosaic.PureOps.Ideal

noncomputable section

namespace Cert.Gcn

open Idealize.ShloMosaic Idealize.ShloMosaic.ValueIdx

abbrev SA : Shape := ⟨2, ![8192, 8192]⟩
abbrev SX : Shape := ⟨2, ![8192, 512]⟩
abbrev SW : Shape := ⟨2, ![512, 256]⟩
abbrev SO : Shape := ⟨2, ![8192, 256]⟩
abbrev SD : Shape := ⟨2, ![8192, 1]⟩

/-- A rank-2 index's row, as a number below the first extent. -/
abbrev row {n0 n1 : Nat} (y : (⟨2, ![n0, n1]⟩ : Shape).Idx) : Fin n0 := ⟨(y 0).val, idx2_lt0 y⟩
/-- A rank-2 index's column, as a number below the second extent. -/
abbrev col {n0 n1 : Nat} (y : (⟨2, ![n0, n1]⟩ : Shape).Idx) : Fin n1 := ⟨(y 1).val, idx2_lt1 y⟩

/-- The row sums of `A`, kept as a column `[8192, 1]`. -/
def degArr (A : FVec Ideal SA .f32) : FVec Ideal SD .f32 :=
  fun y => ∑ j : Fin 8192, A (ix2 (row y) j)

/-- `P = D^(-1/2) (X W)`: row `r` of `X W` scaled by the inverse square root of the column `D` at `r`. -/
def xwpArr (X : FVec Ideal SX .f32) (W : FVec Ideal SW .f32) (D : FVec Ideal SD .f32) : FVec Ideal SO .bf16 :=
  fun y => Ideal.rsqrt (D (ix2 (row y) (0 : Fin 1))) * ∑ k : Fin 512, X (ix2 (row y) k) * W (ix2 k (col y))

/-- `relu (D^(-1/2) (A P + P))`. -/
def outArr (A : FVec Ideal SA .f32) (P : FVec Ideal SO .bf16) (D : FVec Ideal SD .f32) : FVec Ideal SO .f32 :=
  fun y => max (Ideal.rsqrt (D (ix2 (row y) (0 : Fin 1)))
    * ((∑ j : Fin 8192, A (ix2 (row y) j) * P (ix2 j (col y))) + P (ix2 (row y) (col y)))) 0

/-- The three passes composed: a function of the argument arrays alone. -/
def kernelArr (X : FVec Ideal SX .f32) (A : FVec Ideal SA .f32) (W : FVec Ideal SW .f32) : FVec Ideal SO .f32 :=
  outArr A (xwpArr X W (degArr A)) (degArr A)

/-- One pass: `relu ((D^(-1/2) (A + I) D^(-1/2)) (X W))`, the normalised matrix formed entry by entry, each entry
    `(s_i (a_ij + [i = j])) s_j` in this association. -/
def refArr (X : FVec Ideal SX .f32) (A : FVec Ideal SA .f32) (W : FVec Ideal SW .f32) : FVec Ideal SO .f32 :=
  fun y => max (∑ j : Fin 8192,
      ((Ideal.rsqrt (∑ l : Fin 8192, A (ix2 (row y) l)) * (A (ix2 (row y) j) + (if row y = j then (1 : EReal) else 0)))
        * Ideal.rsqrt (∑ l : Fin 8192, A (ix2 j l)))
      * (∑ k : Fin 512, X (ix2 j k) * W (ix2 k (col y)))) 0

/-- A finite sum of real numbers, read in the extended reals, is the sum taken there. -/
theorem coe_finset_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- At a positive real the inverse square root is the real number `1 / sqrt d`. -/
theorem rsqrt_coe_pos (d : ℝ) (h : 0 < d) :
    Ideal.rsqrt (d : EReal) = (((Real.sqrt d)⁻¹ : ℝ) : EReal) := by
  show (if d < 0 then (⊥ : EReal) else if d = 0 then ⊤ else ((Real.sqrt d)⁻¹ : ℝ)) = _
  rw [if_neg (not_lt.mpr h.le), if_neg h.ne']

/-- The real identity: with the Kronecker term picking `j = i`,
    `s_i (sum_j a_ij (s_j p_j) + s_i p_i) = sum_j ((s_i (a_ij + [i = j])) s_j) p_j`. -/
theorem real_arrangement {ι : Type*} [Fintype ι] [DecidableEq ι] (a : ι → ι → ℝ) (s p : ι → ℝ) (i : ι) :
    s i * ((∑ j, a i j * (s j * p j)) + s i * p i)
      = ∑ j, ((s i * (a i j + (if i = j then (1 : ℝ) else 0))) * s j) * p j := by
  have h : ∀ j, ((s i * (a i j + (if i = j then (1 : ℝ) else 0))) * s j) * p j
      = s i * (a i j * (s j * p j)) + (if i = j then s i * (s j * p j) else 0) := by
    intro j
    split_ifs <;> ring
  simp only [h, Finset.sum_add_distrib, Finset.sum_ite_eq, Finset.mem_univ, if_true, ← Finset.mul_sum]
  ring

/-- The two arrangements over arbitrary finite index sets: entries real, row sums positive. -/
theorem arrangement_eq {ι κ : Type*} [Fintype ι] [Fintype κ] [DecidableEq ι]
    (A : ι → ι → EReal) (X : ι → κ → EReal) (W : κ → EReal)
    (hA : ∀ i j, A i j ≠ ⊤ ∧ A i j ≠ ⊥) (hX : ∀ i k, X i k ≠ ⊤ ∧ X i k ≠ ⊥) (hW : ∀ k, W k ≠ ⊤ ∧ W k ≠ ⊥)
    (hdeg : ∀ i, (0 : EReal) < ∑ j, A i j) (i : ι) :
    max (Ideal.rsqrt (∑ j, A i j)
        * ((∑ j, A i j * (Ideal.rsqrt (∑ l, A j l) * ∑ k, X j k * W k))
            + Ideal.rsqrt (∑ l, A i l) * ∑ k, X i k * W k)) 0
      = max (∑ j, ((Ideal.rsqrt (∑ l, A i l) * (A i j + (if i = j then (1 : EReal) else 0)))
          * Ideal.rsqrt (∑ l, A j l)) * (∑ k, X j k * W k)) 0 := by
  obtain ⟨a, rfl⟩ : ∃ a : ι → ι → ℝ, A = fun i j => (a i j : EReal) :=
    ⟨fun i j => (A i j).toReal, by funext i j; exact (EReal.coe_toReal (hA i j).1 (hA i j).2).symm⟩
  obtain ⟨x, rfl⟩ : ∃ x : ι → κ → ℝ, X = fun i k => (x i k : EReal) :=
    ⟨fun i k => (X i k).toReal, by funext i k; exact (EReal.coe_toReal (hX i k).1 (hX i k).2).symm⟩
  obtain ⟨w, rfl⟩ : ∃ w : κ → ℝ, W = fun k => (w k : EReal) :=
    ⟨fun k => (W k).toReal, by funext k; exact (EReal.coe_toReal (hW k).1 (hW k).2).symm⟩
  have hd : ∀ i, 0 < ∑ j, a i j := fun i => by
    have := hdeg i
    rwa [coe_finset_sum, EReal.coe_pos] at this
  have hs : ∀ i, Ideal.rsqrt ((∑ j, a i j : ℝ) : EReal) = (((Real.sqrt (∑ j, a i j))⁻¹ : ℝ) : EReal) :=
    fun i => rsqrt_coe_pos _ (hd i)
  have hp : ∀ j, (∑ k, (x j k : EReal) * (w k : EReal)) = ((∑ k, x j k * w k : ℝ) : EReal) :=
    fun j => by simp only [← EReal.coe_mul, coe_finset_sum]
  have hone : ∀ j, (if i = j then (1 : EReal) else 0) = (((if i = j then (1 : ℝ) else 0) : ℝ) : EReal) :=
    fun j => by split_ifs <;> simp
  simp only [hp, hone, coe_finset_sum, hs, ← EReal.coe_mul, ← EReal.coe_add]
  rw [real_arrangement a (fun i => (Real.sqrt (∑ j, a i j))⁻¹) (fun j => ∑ k, x j k * w k) i]

/-- Where every entry is real and every row of `A` has a positive sum, the two arrangements agree. -/
theorem kernelArr_eq_refArr (X : FVec Ideal SX .f32) (A : FVec Ideal SA .f32) (W : FVec Ideal SW .f32)
    (hX : ∀ i, X i ≠ ⊤ ∧ X i ≠ ⊥) (hA : ∀ i, A i ≠ ⊤ ∧ A i ≠ ⊥) (hW : ∀ i, W i ≠ ⊤ ∧ W i ≠ ⊥)
    (hdeg : ∀ r : Fin 8192, (0 : EReal) < ∑ j : Fin 8192, A (ix2 r j)) :
    kernelArr X A W = refArr X A W := by
  funext y
  have h := arrangement_eq (fun i j => A (ix2 i j)) (fun i k => X (ix2 i k)) (fun k => W (ix2 k (col y)))
    (fun i j => hA _) (fun i k => hX _) (fun k => hW _) hdeg (row y)
  exact h

end Cert.Gcn

end
-- ==== Proof.PreFacts.lean ====
/-
  What the precondition says of the three argument arrays, over the extended reals: every entry is a real number
  (its absolute value is below +inf), and every row of the adjacency matrix has a positive sum.

  The precondition is a conjunction of four "for all" statements, each a fold of single bits by "and" started at 1;
  such a fold is 1 only if every bit folded is 1. For the first three the bit at an index is  max x (-x) < +inf,
  which fails exactly at the two infinities. For the fourth the bit at row r is  0 < 0 + sum_j A[r, j].
-/
import proofs.«123797_j87935160418607_1_alg».proof.Pre_finite_inputs
import proofs.«123797_j87935160418607_1_alg».proof.Proof.Spec
import Idealize.ShloMosaic.Lib.ReduceAll
import Idealize.ShloMosaic.Lib.StableHlo.Predicate
import Idealize.ShloMosaic.PureOps.Ideal.Laws

noncomputable section

namespace Cert.Gcn

open Idealize.ShloMosaic Idealize.ShloMosaic.ValueIdx

open Cert.Pre_finite_inputs in
/-- The rank-0 shape has one index. -/
private theorem scalar_idx_subsingleton : Subsingleton S_.Idx := ⟨fun a b => funext fun d => d.elim0⟩

/-- The pattern 0x7F800000 is +inf. -/
private theorem inf_bits : Ideal.ofBits .f32 0x7F800000#32 = (⊤ : EReal) := by
  simp [Ideal.ofBits, Ideal.ieee]

/-- An extended real whose absolute value max x (-x) is below +inf is neither infinity. -/
private theorem real_of_abs_lt (x : EReal)
    (h : Ideal.cmp .olt (max x (-x)) (Ideal.ofBits .f32 0x7F800000#32) = 1#1) : x ≠ ⊤ ∧ x ≠ ⊥ := by
  rw [inf_bits] at h
  induction x using EReal.rec with
  | bot => simp [Ideal.cmp] at h
  | top => simp [Ideal.cmp] at h
  | coe r => exact ⟨EReal.coe_ne_top r, EReal.coe_ne_bot r⟩

open Cert.Pre_finite_inputs in
/-- all (|x| < +inf), the conjunction taken over every axis: each entry of x is a real number. -/
private theorem all_real {s : Shape} {axes : List (Fin s.rank)} (hb : S_.BroadcastsInDim s ![]) (hr : s.ReducesTo axes S_)
    (h0 : 0 < S_.numel) (x : FVec Ideal s .f32)
    (h : Host.reduce IntOp.andi (cmpf .olt (Host.absf x) (broadcastInDim s ![] hb (constant S_ .f32 0x7F800000#32)))
      (constantI S_ 1 1#1) hr h0 ix0 = 1#1) (i : s.Idx) : x i ≠ ⊤ ∧ x i ≠ ⊥ := by
  haveI := scalar_idx_subsingleton
  exact real_of_abs_lt (x i) (Host.reduce_andi_all _ _ hr h0 ix0 h i)

open Cert.Pre_finite_inputs in
/-- all (sum over axis 1 of A > 0): the sum of row r, the initial value 0 added in front, is positive. -/
private theorem row_sum_pos (hr : S8192x8192.ReducesTo [1] S8192) (hb : S_.BroadcastsInDim S8192 ![])
    (hr0 : S8192.ReducesTo [0] S_) (h0 : 0 < S_.numel) (A : FVec Ideal SA .f32)
    (h : Host.reduce IntOp.andi (cmpf .ogt (Host.reduceAdd A (constant S_ .f32 0x00000000#32) hr h0)
        (broadcastInDim S8192 ![] hb (constant S_ .f32 0x00000000#32))) (constantI S_ 1 1#1) hr0 h0 ix0 = 1#1)
    (r : Fin 8192) : (0 : EReal) < ∑ j : Fin 8192, A (ix2 r j) := by
  haveI := scalar_idx_subsingleton
  have e : Ideal.cmp .ogt (Ideal.hostReduceAdd hr A (Ideal.ofBits .f32 0x00000000#32) (Shape.Idx.ofFin r))
      (Ideal.ofBits .f32 0x00000000#32) = 1#1 := Host.reduce_andi_all _ _ hr0 h0 ix0 h (Shape.Idx.ofFin r)
  rw [Ideal.hostReduceAdd_single hr (by decide), Ideal.ofBits_zero_f32, zero_add] at e
  simp only [Ideal.cmp, StableHlo.Predicate.ofBool_eq_one_iff, decide_eq_true_eq] at e
  refine lt_of_lt_of_eq e (Finset.sum_congr rfl fun k _ => congrArg A (funext fun a => Fin.ext ?_))
  match a with
  | ⟨0, _⟩ => rfl
  | ⟨1, _⟩ => rfl

variable [Cert.Pre_finite_inputs.Facts]

/-- The precondition, read: all entries real, all row sums of `A` positive. -/
theorem pre_facts (X : FVec Ideal SX .f32) (A : FVec Ideal SA .f32) (W : FVec Ideal SW .f32)
    (h : Cert.Pre_finite_inputs.fn (F := Ideal) X A W = fun _ => 1#1) :
    (∀ i, X i ≠ ⊤ ∧ X i ≠ ⊥) ∧ (∀ i, A i ≠ ⊤ ∧ A i ≠ ⊥) ∧ (∀ i, W i ≠ ⊤ ∧ W i ≠ ⊥)
      ∧ ∀ r : Fin 8192, (0 : EReal) < ∑ j : Fin 8192, A (ix2 r j) := by
  have h0 := congrFun h ValueIdx.ix0
  dsimp only [Cert.Pre_finite_inputs.fn, Cert.Pre_finite_inputs.fn_part1] at h0
  simp only [andi, IntOp.andi_eq_one] at h0
  obtain ⟨⟨⟨hX, hA⟩, hW⟩, hD⟩ := h0
  exact ⟨all_real _ _ _ X hX, all_real _ _ _ A hA, all_real _ _ _ W hW, row_sum_pos _ _ _ _ A hD⟩

end Cert.Gcn

end
-- ==== Proof.RefValue.lean ====
/-
  The plain program's result, read index by index over the extended reals: it is the one-pass arrangement `refArr`.

  The program forms  s = rsqrt (row sums of A),  the identity matrix as the unsigned reading of the comparison of the
  two index grids, the matrix  N_ij = (s_i (a_ij + [i = j])) s_j,  the product  X W,  the product  N (X W),  and the
  maximum with zero. Reading the result at the index (p, q) and each operand at the index it is read at gives exactly
  `refArr X A W (p, q)`, the products in the program's own order and association.
-/
import proofs.«123797_j87935160418607_1_alg».proof.Proof.Gen.ReferenceIdeal.Run
import proofs.«123797_j87935160418607_1_alg».proof.Proof.Gen.ReferenceIdeal.Read
import proofs.«123797_j87935160418607_1_alg».proof.Proof.Spec

noncomputable section

namespace Cert.RefValue

open Idealize.ShloMosaic Idealize.ShloMosaic.ValueIdx Cert.Gcn
open Cert.ReferenceIdeal

/-- The row of the index built from `p` and `q` is `p`. -/
theorem row_ix2 {n0 n1 : Nat} (p : Fin n0) (q : Fin n1) : row (ix2 p q) = p := Fin.ext rfl
/-- The column of the index built from `p` and `q` is `q`. -/
theorem col_ix2 {n0 n1 : Nat} (p : Fin n0) (q : Fin n1) : col (ix2 p q) = q := Fin.ext rfl

/-- Two numbers below 8192 have the same 32-bit word exactly when they are equal. -/
theorem word_eq_iff (p j : Fin 8192) : BitVec.ofNat 32 p.val = BitVec.ofNat 32 j.val ↔ p = j := by
  constructor
  · intro h
    have h' := congrArg BitVec.toNat h
    rw [BitVec.toNat_ofNat, BitVec.toNat_ofNat,
      Nat.mod_eq_of_lt (lt_trans p.isLt (by decide)), Nat.mod_eq_of_lt (lt_trans j.isLt (by decide))] at h'
    exact Fin.ext h'
  · intro h; rw [h]

/-- The identity matrix's entry: the comparison of the row number (plus the word zero) with the column number, read
    unsigned, is one on the diagonal and zero off it. -/
theorem eye_entry (p j : Fin 8192) :
    FloatOps.uitofp (F := Ideal) .f32
        (IntOp.cmpi .eq (IntOp.addi (BitVec.ofNat 32 p.val) 0#32) (BitVec.ofNat 32 j.val))
      = if p = j then (1 : EReal) else 0 := by
  show (((IntOp.cmpi .eq (IntOp.addi (BitVec.ofNat 32 p.val) 0#32) (BitVec.ofNat 32 j.val)).toNat : ℝ) : EReal) = _
  unfold IntOp.cmpi IntOp.addi
  rw [BitVec.add_zero]
  by_cases h : p = j
  · rw [if_pos h, h]
    simp
  · rw [if_neg h]
    have hne : ¬ BitVec.ofNat 32 p.val = BitVec.ofNat 32 j.val := fun e => h ((word_eq_iff p j).mp e)
    simp [hne]

/-! The indices at which the program reads its operands, as indices built from coordinates. -/

theorem lidx16 (p : Fin 8192) (q : Fin 256) (j : Fin 8192) : Read.lidx_main_v16 (ix2 p q) j = ix2 p j :=
  funext fun a => Fin.ext (by match a with | ⟨0, _⟩ => rfl | ⟨1, _⟩ => rfl)
theorem ridx16 (p : Fin 8192) (q : Fin 256) (j : Fin 8192) : Read.ridx_main_v16 (ix2 p q) j = ix2 j q :=
  funext fun a => Fin.ext (by match a with | ⟨0, _⟩ => rfl | ⟨1, _⟩ => rfl)
theorem lidx15 (j : Fin 8192) (q : Fin 256) (k : Fin 512) : Read.lidx_main_v15 (ix2 j q) k = ix2 j k :=
  funext fun a => Fin.ext (by match a with | ⟨0, _⟩ => rfl | ⟨1, _⟩ => rfl)
theorem ridx15 (j : Fin 8192) (q : Fin 256) (k : Fin 512) : Read.ridx_main_v15 (ix2 j q) k = ix2 k q :=
  funext fun a => Fin.ext (by match a with | ⟨0, _⟩ => rfl | ⟨1, _⟩ => rfl)
/-- The row sum behind the column broadcast at (p, j) runs over row `p`. -/
theorem idx_rowsum_left (p j l : Fin 8192) :
    Read.idx_main_v0 (Read.idx_main_v9 (Read.idx_main_v10 (ix2 p j))) l = ix2 p l :=
  funext fun a => Fin.ext (by match a with | ⟨0, _⟩ => rfl | ⟨1, _⟩ => rfl)
/-- The row sum behind the row broadcast at (p, j) runs over row `j`. -/
theorem idx_rowsum_right (p j l : Fin 8192) :
    Read.idx_main_v0 (Read.idx_main_v12 (Read.idx_main_v13 (ix2 p j))) l = ix2 j l :=
  funext fun a => Fin.ext (by match a with | ⟨0, _⟩ => rfl | ⟨1, _⟩ => rfl)

/-- The plain program's last stage is `refArr` of the arguments. -/
theorem ref_eq (X : FVec Ideal SX .f32) (A : FVec Ideal SA .f32) (W : FVec Ideal SW .f32) :
    Cert.ReferenceIdeal.Read.val_main_v17 (F := Ideal) X A W = refArr X A W := by
  funext y
  obtain ⟨p, q, rfl⟩ : ∃ (p : Fin 8192) (q : Fin 256), y = ix2 p q := ⟨y 0, y 1, eq_ix2 y⟩
  simp only [refArr, row_ix2, col_ix2]
  -- the maximum with the constant zero, of the product of the normalised matrix with  X W
  rw [Read.val_main_v17_apply, Read.val_main_call0_v0_apply, Read.val_main_call0_cst_apply,
    Read.val_main_v16_apply]
  simp only [Ideal.maximumf_def, Ideal.ofBits_def, Ideal.ofBits_zero_f32]
  refine congrArg (max · 0) (Finset.sum_congr rfl fun j _ => ?_)
  -- the term at  j:  the matrix's entry (p, j) times the entry (j, q) of  X W
  rw [lidx16, ridx16]
  rw [Read.val_main_v14_apply, Read.val_main_v11_apply, Read.val_main_v10_apply, Read.val_main_v9_apply,
    Read.val_main_v1_apply, Read.val_main_v0_apply, Read.val_main_v8_apply, Read.val_main_v7_apply,
    Read.val_main_v6_apply, Read.val_main_v5_apply, Read.val_main_v2_apply, Read.val_main_v4_apply,
    Read.val_main_c_apply, Read.val_main_v3_apply, Read.val_main_v13_apply, Read.val_main_v12_apply,
    Read.val_main_v1_apply, Read.val_main_v0_apply, Read.val_main_v15_apply, Read.val_main_cst_apply]
  -- the identity's entry at (p, j)
  have he : FloatOps.uitofp (F := Ideal) .f32
      (IntOp.cmpi .eq (IntOp.addi (BitVec.ofNat 32 (ix2 p j 0).val) 0#32) (BitVec.ofNat 32 (ix2 p j 1).val))
        = if p = j then (1 : EReal) else 0 := eye_entry p j
  rw [he]
  simp only [idx_rowsum_left, idx_rowsum_right, lidx15, ridx15, Ideal.mulf_def, Ideal.addf_def,
    Ideal.hostUnary_rsqrt_def, Ideal.ofBits_def, Ideal.ofBits_zero_f32, zero_add]

end Cert.RefValue

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.KDeg.lean ====
/-
  First pass (the row sums). Each grid point takes 512 whole rows of the matrix and writes their sums as a [512, 1]
  block; the sixteen blocks tile the [8192, 1] column, so the column ends holding the row sums of the whole matrix.
-/
import proofs.«123797_j87935160418607_1_alg».proof.Proof.Gen.KernelIdeal.Frame
import proofs.«123797_j87935160418607_1_alg».proof.Proof.Gen.KernelIdeal.Points
import proofs.«123797_j87935160418607_1_alg».proof.Proof.Spec
import proofs.«123797_j87935160418607_1_alg».proof.Proof.LibAffineRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GcnValue

open Idealize.ShloMosaic Idealize.ShloMosaic.TcCoe Idealize.ShloMosaic.ValueIdx Idealize.SL.Sem
open Cert.KernelIdeal Cert.KernelIdeal.Gen Cert.Gcn

-- the buffer contents when a region is entered, at the extended reals
variable (V : (c : Dev nD) → (b : Ref sig .tc) → Buf (Elt Ideal) ((c : Thread nD τ).loc b))

/-! ## The body's arithmetic at an index -/

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a [512, 8192] block, from zero, read at row `p`: the sum of that row's entries. -/
theorem laneSum_apply (x : FVec Ideal S512x8192 .f32) (h : S512x8192.Reduces [1] S512) (hφ : FKind.Formats .f32)
    (hacc : (0x00000000#32 : BitVec 32) = 0x00000000#32) (p : Fin 512) :
    multiReduction (F := Ideal) .add [1] S512 x 0x00000000#32 h hφ hacc (ix1 p) = ∑ j : Fin 8192, x (ix2 p j) := by
  refine (Ideal.multiReduction_add_single x 0x00000000#32 h hφ hacc (ix1 p)).trans ?_
  refine Finset.sum_congr rfl fun j _ => congrArg x ?_
  funext a; apply Fin.ext
  match a with
  | ⟨0, _⟩ => rfl
  | ⟨1, _⟩ => rfl

/-- What one point computes from its block of 512 rows: at `(p, 0)`, the sum of row `p` of the block. -/
theorem deg_payload (x0 : FVec Ideal S512x8192 .f32) (p : Fin 512) (q : Fin 1) :
    k0_pay1 (F := Ideal) x0 (ix2 p q) = ∑ j : Fin 8192, x0 (ix2 p j) := by
  unfold k0_pay1
  rw [shapeCast_a_a1_apply]
  exact laneSum_apply x0 _ _ _ p

/-! ## From the blocks to the array -/

theorem zero_offsets : (![0, 0] : Fin 2 → Nat) = fun _ => 0 := funext fun a => by fin_cases a <;> rfl

/-- The printed index maps, decided over the sixteen points: point `t` takes block row `t` of the matrix and writes
    block row `t` of the column; both have block column 0. -/
theorem deg_index_facts : ∀ t : Fin cfg0.N, win0_0.index t (0 : Fin 2) = t.val ∧ win0_0.index t (1 : Fin 2) = 0
    ∧ win0_1.index t (0 : Fin 2) = t.val ∧ win0_1.index t (1 : Fin 2) = 0 ∧ t.val < 16 :=
  (by decide +kernel : ∀ t : Fin grid0.N, _)

/-- Entry `(p, j)` of the matrix block point `t` loads is entry `(512 t + p, j)` of the matrix. -/
theorem read_blk_matrix (c : Dev nD) (t : Fin cfg0.N) (p : Fin 512) (j : Fin 8192) :
    iblk0 V c 0 t (ix2 p j)
      = V c main_arg1 (ix2 (⟨512 * t.val + p.val, by have := (deg_index_facts t).2.2.2.2; omega⟩ : Fin 8192) j) := by
  obtain ⟨e0, e1, -, -, ht⟩ := deg_index_facts t
  show V c main_arg1 (((cfg0.win 0).blk t).view.emb (ix2 p j)) = _
  refine congrArg (V c main_arg1) ?_
  funext a; apply Fin.ext
  match a with
  | ⟨0, _⟩ => show win0_0.index t (0 : Fin 2) * 512 + 1 * p.val = 512 * t.val + p.val; omega
  | ⟨1, _⟩ => show win0_0.index t (1 : Fin 2) * 8192 + 1 * j.val = j.val; omega

/-- WHAT POINT `t` WRITES BACK is block `t` of the row sums of the matrix as the pass finds it. -/
theorem deg_flushed_eq (c : Dev nD) (t : Fin cfg0.N) :
    (dat0 V c).flushed 1 t = ((cfg0.win 1).blk t).view.read (Elt Ideal) (degArr (V c main_arg1)) := by
  show (cfg0.win 1).cut (grid0.coords t) ((dat0 V c).after 1 t) = _
  rw [after0_1]
  unfold out0_1
  rw [View.canon_unit_zero zero_offsets]
  simp only [View.ld_unit_zero (S := S512x8192) zero_offsets]
  obtain ⟨-, -, e0, e1, ht⟩ := deg_index_facts t
  funext y
  obtain ⟨p, q, rfl⟩ : ∃ (p : Fin 512) (q : Fin 1), y = ix2 p q := ⟨y 0, y 1, eq_ix2 y⟩
  show k0_pay1 (F := Ideal) (iblk0 V c 0 t) (ix2 p q) = degArr (V c main_arg1) (((cfg0.win 1).blk t).view.emb (ix2 p q))
  rw [deg_payload]
  unfold degArr
  refine Finset.sum_congr rfl fun j _ => ?_
  rw [read_blk_matrix]
  refine congrArg (V c main_arg1) ?_
  refine congrArg (fun r => ix2 r j) (Fin.ext ?_)
  show 512 * t.val + p.val = win0_1.index t (0 : Fin 2) * 512 + 1 * p.val
  omega

/-- An index of the column is in point `t`'s block iff each coordinate is in the block's range on its axis. -/
theorem mem_deg_blk (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- Every index of the column is in some point's block: row `r` is in block `r / 512`. -/
theorem deg_cover (i : S8192x1.Idx) :
    ∃ t : Fin cfg0.N, (cfg0.win 1).flush t = true ∧ i ∈ ((cfg0.win 1).blk t).view.set := by
  have hi0 : (i 0).val < 8192 := (i 0).isLt
  have hi1 : (i 1).val < 1 := (i 1).isLt
  refine ⟨(⟨(i 0).val / 512, by show (i 0).val / 512 < 16; omega⟩ : Fin cfg0.N), flush0_1 _, ?_⟩
  rw [mem_deg_blk]
  obtain ⟨-, -, e0, e1, -⟩ := deg_index_facts (⟨(i 0).val / 512, by show (i 0).val / 512 < 16; omega⟩ : Fin cfg0.N)
  have e0' : win0_1.index (⟨(i 0).val / 512, by show (i 0).val / 512 < 16; omega⟩ : Fin cfg0.N) (0 : Fin 2) = (i 0).val / 512 := e0
  intro a
  match a with
  | ⟨0, _⟩ =>
    show win0_1.index _ (0 : Fin 2) * 512 ≤ (i 0).val ∧ (i 0).val < win0_1.index _ (0 : Fin 2) * 512 + 512
    rw [e0']; omega
  | ⟨1, _⟩ =>
    show win0_1.index _ (1 : Fin 2) * 1 ≤ (i 1).val ∧ (i 1).val < win0_1.index _ (1 : Fin 2) * 1 + 1
    rw [e1]; omega

/-- After the first pass the column array holds the row sums of the matrix the pass was entered with. -/
theorem deg_final (c : Dev nD) :
    (dat0 (F := Ideal) V c).arrAt 1 cfg0.N = degArr (V c main_arg1) :=
  (dat0 V c).arrAt_eq_of_cover 1 (degArr (V c main_arg1)) (fun t _ => deg_flushed_eq V c t) deg_cover

end Cert.KernelIdeal.GcnValue

end
-- ==== Proof.KXw.lean ====
/-
  Second pass. Each grid point takes 1024 whole rows of X, all of W and the matching 1024 entries of the row-sum
  column, and writes  rsqrt(d_r) * (X W)_(r, c)  for its rows; the eight blocks tile the [8192, 256] array.

  Read index by index: at the extended reals narrowing to bf16 is the identity, the matrix unit's product into zeros is
  the sum over the 512 contracted positions, the column [1024, 1] spread over 256 columns reads at (p, q) its entry
  (p, 0), and the inverse square root and the product act entry by entry. Row p of point t's blocks is row
  1024 t + p of X, of the column and of the result; W's one block is W itself. Row r of the result lies in the block
  of point r / 1024, and every point writes its block back.
-/
import proofs.«123797_j87935160418607_1_alg».proof.Proof.Gen.KernelIdeal.Frame
import proofs.«123797_j87935160418607_1_alg».proof.Proof.Spec
import proofs.«123797_j87935160418607_1_alg».proof.Proof.LibAffineRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GcnValue

open Idealize.ShloMosaic Idealize.ShloMosaic.TcCoe Idealize.ShloMosaic.ValueIdx Idealize.SL.Sem
open Cert.KernelIdeal Cert.KernelIdeal.Gen Cert.Gcn

/-! ## The body's arithmetic at an index -/

/-- The product's left operand is indexed by the result's row … -/
theorem xwp_lhs_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
/-- … and the contracted position, … -/
theorem xwp_lhs_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
/-- … the right operand by the contracted position … -/
theorem xwp_rhs_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
/-- … and the result's column. -/
theorem xwp_rhs_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The block's product is the plain product of a [1024, 512] by a [512, 256] matrix. -/
theorem xwp_plain : Cert.Lib.PlainDot dot_S1024x512_S512x256_S1024x256_1_0_0_1_n_n where
  rank := rfl
  size := rfl
  l0 := xwp_lhs_0
  l1 := xwp_lhs_1
  r0 := xwp_rhs_0
  r1 := xwp_rhs_1

/-- A column `[a, 1]` spread over `b` columns reads, at `(p, q)`, the column's entry `(p, 0)`. -/
theorem xwp_column_spread_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- What a point computes from its three blocks, at row `p` and column `q` of its block. -/
theorem xwp_payload (x0 : Vec Ideal S1024x512 .f32) (x1 : Vec Ideal S512x256 .f32) (x2 : Vec Ideal S1024x1 .f32)
    (p : Fin 1024) (q : Fin 256) :
    k1_pay1 (F := Ideal) x0 x1 x2 (ix2 p q)
      = Ideal.rsqrt (x2 (ix2 p (0 : Fin 1))) * ∑ k : Fin 512, x0 (ix2 p k) * x1 (ix2 k q) := by
  unfold k1_pay1
  rw [truncf_apply, mulf_apply, xwp_column_spread_apply, Cert.Lib.matmul_zero_apply xwp_plain, shapeCast_self]
  rfl

/-! ## The blocks, as rows of the arrays -/

-- the buffer contents when a region is entered, at the extended reals
variable (V : (c : Dev nD) → (b : Ref sig .tc) → Buf (Elt Ideal) ((c : Thread nD τ).loc b))

theorem xwp_zero_off : (![0, 0] : Fin 2 → Nat) = fun _ => 0 := funext fun a => by
  match a with
  | ⟨0, _⟩ => rfl
  | ⟨1, _⟩ => rfl

/-- The printed index maps over the eight points: X's, the column's and the result's block is (t, 0); W's is (0, 0). -/
theorem xwp_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row `p` of point `t`'s block of X is row `1024 t + p` of X. -/
theorem xwp_blk_x (c : Dev nD) (t : Fin cfg1.N) (p : Fin 1024) (k : Fin 512) :
    (iblk1 V c 0 t : Vec Ideal S1024x512 .f32) (ix2 p k)
      = (V c main_arg0 : S8192x512.Idx → EReal) (ix2 ⟨1024 * t.val + p.val, by have : t.val < 8 := t.isLt; omega⟩ k) := by
  obtain ⟨e0, e1, -⟩ := xwp_index t
  unfold iblk1
  rw [View.read_apply]
  show V c main_arg0 _ = V c main_arg0 _
  congr 1
  funext a
  apply Fin.ext
  match a with
  | ⟨0, _⟩ => show win1_0.index t (0 : Fin 2) * 1024 + 1 * p.val = 1024 * t.val + p.val; omega
  | ⟨1, _⟩ => show win1_0.index t (1 : Fin 2) * 512 + 1 * k.val = k.val; omega

/-- W's one block is W. -/
theorem xwp_blk_w (c : Dev nD) (t : Fin cfg1.N) (k : Fin 512) (q : Fin 256) :
    (iblk1 V c 1 t : Vec Ideal S512x256 .f32) (ix2 k q) = (V c main_arg2 : S512x256.Idx → EReal) (ix2 k q) := by
  obtain ⟨-, -, e0, e1, -⟩ := xwp_index t
  unfold iblk1
  rw [View.read_apply]
  show V c main_arg2 _ = V c main_arg2 _
  congr 1
  funext a
  apply Fin.ext
  match a with
  | ⟨0, _⟩ => show win1_1.index t (0 : Fin 2) * 512 + 1 * k.val = k.val; omega
  | ⟨1, _⟩ => show win1_1.index t (1 : Fin 2) * 256 + 1 * q.val = q.val; omega

/-- Entry `p` of point `t`'s block of the column is its entry `1024 t + p`. -/
theorem xwp_blk_d (c : Dev nD) (t : Fin cfg1.N) (p : Fin 1024) :
    (iblk1 V c 2 t : Vec Ideal S1024x1 .f32) (ix2 p (0 : Fin 1))
      = (V c main_v0 : S8192x1.Idx → EReal) (ix2 ⟨1024 * t.val + p.val, by have : t.val < 8 := t.isLt; omega⟩ (0 : Fin 1)) := by
  obtain ⟨-, -, -, -, e0, e1, -⟩ := xwp_index t
  unfold iblk1
  rw [View.read_apply]
  show V c main_v0 _ = V c main_v0 _
  congr 1
  funext a
  apply Fin.ext
  match a with
  | ⟨0, _⟩ => show win1_2.index t (0 : Fin 2) * 1024 + 1 * p.val = 1024 * t.val + p.val; omega
  | ⟨1, _⟩ => show win1_2.index t (1 : Fin 2) * 1 + 1 * 0 = 0; omega

/-- Row `p`, column `q` of point `t`'s block of the result is row `1024 t + p`, column `q` of the result. -/
theorem xwp_blk_out_emb (t : Fin cfg1.N) (p : Fin 1024) (q : Fin 256) :
    (((cfg1.win 3).blk t).view.emb (ix2 p q) : S8192x256.Idx)
      = ix2 ⟨1024 * t.val + p.val, by have : t.val < 8 := t.isLt; omega⟩ q := by
  obtain ⟨-, -, -, -, -, -, e0, e1⟩ := xwp_index t
  funext a
  apply Fin.ext
  match a with
  | ⟨0, _⟩ => show win1_3.index t (0 : Fin 2) * 1024 + 1 * p.val = 1024 * t.val + p.val; omega
  | ⟨1, _⟩ => show win1_3.index t (1 : Fin 2) * 256 + 1 * q.val = q.val; omega

/-! ## What a point writes back, and the whole array -/

/-- Point `t` writes back block `t` of `xwpArr` of the arrays the pass was entered with. -/
theorem xwp_flushed (c : Dev nD) (t : Fin cfg1.N) :
    (dat1 (F := Ideal) V c).flushed 3 t
      = ((cfg1.win 3).blk t).view.read (Elt Ideal) (xwpArr (V c main_arg0) (V c main_arg2) (V c main_v0)) := by
  show (cfg1.win 3).cut (grid1.coords t) ((dat1 V c).after 3 t) = _
  rw [after1_3]
  unfold out1_3
  rw [View.canon_unit_zero xwp_zero_off]
  simp only [View.ld_unit_zero (S := S1024x512) xwp_zero_off, View.ld_unit_zero (S := S512x256) xwp_zero_off,
    View.ld_unit_zero (S := S1024x1) xwp_zero_off]
  funext j
  obtain ⟨p, q, rfl⟩ : ∃ (p : Fin 1024) (q : Fin 256), j = ix2 p q := ⟨j 0, j 1, eq_ix2 j⟩
  show k1_pay1 (F := Ideal) (iblk1 V c 0 t) (iblk1 V c 1 t) (iblk1 V c 2 t) (ix2 p q)
    = xwpArr (V c main_arg0) (V c main_arg2) (V c main_v0) (((cfg1.win 3).blk t).view.emb (ix2 p q))
  refine (xwp_payload _ _ _ p q).trans ?_
  rw [xwp_blk_out_emb, xwp_blk_d]
  show _ = Ideal.rsqrt _ * ∑ k : Fin 512, _
  refine congrArg _ (Finset.sum_congr rfl fun k _ => ?_)
  rw [xwp_blk_x, xwp_blk_w]

/-- An index of the result is in point `t`'s block iff each coordinate is in the block's range on its axis. -/
theorem xwp_mem_blk (t : Fin cfg1.N) (i : S8192x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v1).slice (win1_3.rect t)).set ↔ _
  rw [View.set_slice_whole, Rect.mem_set_unit]
  exact Iff.rfl

/-- Row `r` of the result lies in the block of point `r / 1024`, which is written back. -/
theorem xwp_cover (i : S8192x256.Idx) :
    ∃ t : Fin cfg1.N, (cfg1.win 3).flush t = true ∧ i ∈ ((cfg1.win 3).blk t).view.set := by
  have hi0 : (i 0).val < 8192 := (i 0).isLt
  have hi1 : (i 1).val < 256 := (i 1).isLt
  have ht : (i 0).val / 1024 < cfg1.N := by show _ < 8; omega
  obtain ⟨-, -, -, -, -, -, e0, e1⟩ := xwp_index ⟨(i 0).val / 1024, ht⟩
  refine ⟨⟨(i 0).val / 1024, ht⟩, flush1_3 _, ?_⟩
  rw [xwp_mem_blk]
  intro a
  match a with
  | ⟨0, _⟩ => show win1_3.index ⟨(i 0).val / 1024, ht⟩ (0 : Fin 2) * 1024 ≤ (i 0).val ∧ (i 0).val < win1_3.index ⟨(i 0).val / 1024, ht⟩ (0 : Fin 2) * 1024 + 1024; rw [e0]; show (i 0).val / 1024 * 1024 ≤ (i 0).val ∧ (i 0).val < (i 0).val / 1024 * 1024 + 1024; omega
  | ⟨1, _⟩ => show win1_3.index ⟨(i 0).val / 1024, ht⟩ (1 : Fin 2) * 256 ≤ (i 1).val ∧ (i 1).val < win1_3.index ⟨(i 0).val / 1024, ht⟩ (1 : Fin 2) * 256 + 256; omega

/-- After the second pass the array holds `xwpArr` of the arrays the pass was entered with. -/
theorem xwp_final (c : Dev nD) :
    (dat1 (F := Ideal) V c).arrAt 3 cfg1.N = xwpArr (V c main_arg0) (V c main_arg2) (V c main_v0) :=
  (dat1 (F := Ideal) V c).arrAt_eq_of_cover 3 (xwpArr (V c main_arg0) (V c main_arg2) (V c main_v0))
    (fun t _ => xwp_flushed V c t) xwp_cover

end Cert.KernelIdeal.GcnValue

end
-- ==== Proof.KConv.lean ====
/-
  Third pass. Each grid point takes 256 whole rows of the matrix, all of P (the second pass's result), the matching
  256 entries of the row-sum column, and reads its own 256 rows of P once more for the identity's term; it writes
  relu (rsqrt(d_r) * ((A P)_(r, c) + P_(r, c)))  for its rows; the thirty-two blocks tile the [8192, 256] result.

  The order below: what one point's single store leaves in its output block, as the body's arithmetic of the four
  vectors it loads; that arithmetic read at an entry (p, q) — the product is the sum over the 8192 contracted
  entries, narrowing and widening are the identity on the extended reals, the column is repeated along each row —;
  then point t's blocks as rows 256 t … 256 t + 255 of the arrays, so that its output block is block t of `outArr`;
  and row r of the result lies in the block of point r / 256, so the blocks cover the array.
-/
import proofs.«123797_j87935160418607_1_alg».proof.Proof.Gen.KernelIdeal.Frame
import proofs.«123797_j87935160418607_1_alg».proof.Proof.Spec
import proofs.«123797_j87935160418607_1_alg».proof.Proof.LibAffineRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.GcnValue

open Idealize.ShloMosaic Idealize.ShloMosaic.TcCoe Idealize.ShloMosaic.ValueIdx Idealize.SL.Sem
open Idealize.ShloMosaic.Tactic
open Cert.KernelIdeal Cert.KernelIdeal.Gen Cert.Gcn

-- the buffer contents when a region is entered, at the extended reals
variable (V : (c : Dev nD) → (b : Ref sig .tc) → Buf (Elt Ideal) ((c : Thread nD τ).loc b))

/-! ## What one grid point leaves in its output block -/

/-- The zero offsets of a whole-block access, as a constant function. -/
theorem conv_zero_offsets : (![0, 0] : Fin 2 → Nat) = fun _ => 0 := funext fun a => by fin_cases a <;> rfl

/-- The body's one store covers the output block, and its four loads read: the matrix block, all of P, the column
    block (whole staging buffers), and the 256 rows of P that start at the row offset the body computes. -/
theorem conv_piece {F : FTy → Type} [FloatOps F] (c : Dev nD) (i : grid2.Coords)
    (arg1 : Memref sig .tc .vmem S256x8192 .f32) (harg1 : arg1.IsWhole)
    (arg2 : Memref sig .tc .vmem S8192x256 .bf16) (harg2 : arg2.IsWhole)
    (arg3 : Memref sig .tc .vmem S256x1 .f32) (harg3 : arg3.IsWhole)
    (arg4 : Memref sig .tc .vmem S256x256 .f32) (harg4 : arg4.IsWhole)
    (x0 : Vec F S256x8192 .f32) (x1 : Vec F S8192x256 .bf16) (x2 : Vec F S256x1 .f32) :
    out2_A_3 c i arg1 harg1 arg2 harg2 arg3 harg3 arg4 harg4 x0 x1 x2
      = k2_pay1 x0 x1 (View.ld x1 (Rect.unit (s := S8192x256) (k2_off1 i) S256x256.size (k2_off1_inb i))) x2 := by
  unfold out2_A_3
  rw [View.read_writes_eq_canon _ _ _ (cover2_A_3 c i arg1 harg1 arg2 harg2 arg3 harg3 arg4 harg4 x0 x1 x2)]
  unfold kernelRun2_A
  dsimp only
  sl_unfold_words
  rw [View.canon_unit_zero conv_zero_offsets]
  simp only [View.readAt_eq_ld, harg1.read_unread, harg2.read_unread, harg3.read_unread,
    View.ld_unit_zero (S := S256x8192) conv_zero_offsets, View.ld_unit_zero (S := S8192x256) conv_zero_offsets,
    View.ld_unit_zero (S := S256x1) conv_zero_offsets]

/-! ## The body's arithmetic at an entry -/

/-- The matrix unit's dimension numbers are those of the plain product of a [256, 8192] by a [8192, 256] matrix:
    the result's row is the left operand's row, -/
theorem conv_dot_l0 (i : S256x256.Idx) (q : dot_S256x8192_S8192x256_S256x256_1_0_0_1_n_n.contr.Idx) :
    (dot_S256x8192_S8192x256_S256x256_1_0_0_1_n_n.lhsIdx i q 0).val = (i 0).val := by
  unfold DotDims.lhsIdx
  rw [dif_neg (show ¬(0 : Fin S256x8192.rank) ∈ dot_S256x8192_S8192x256_S256x256_1_0_0_1_n_n.lhsBatch by decide), dif_pos (show (0 : Fin S256x8192.rank) ∈ dot_S256x8192_S8192x256_S256x256_1_0_0_1_n_n.lhsNonContracting by decide)]
  rfl
/-- the contracted index is the left operand's column -/
theorem conv_dot_l1 (i : S256x256.Idx) (q : dot_S256x8192_S8192x256_S256x256_1_0_0_1_n_n.contr.Idx) :
    (dot_S256x8192_S8192x256_S256x256_1_0_0_1_n_n.lhsIdx i q 1).val = (q ⟨0, by decide⟩).val :=
  dot_S256x8192_S8192x256_S256x256_1_0_0_1_n_n.lhsIdx_val_of_single rfl i q
/-- and the right operand's row, -/
theorem conv_dot_r0 (i : S256x256.Idx) (q : dot_S256x8192_S8192x256_S256x256_1_0_0_1_n_n.contr.Idx) :
    (dot_S256x8192_S8192x256_S256x256_1_0_0_1_n_n.rhsIdx i q 0).val = (q ⟨0, by decide⟩).val :=
  dot_S256x8192_S8192x256_S256x256_1_0_0_1_n_n.rhsIdx_val_of_single rfl i q
/-- and the result's column is the right operand's column. -/
theorem conv_dot_r1 (i : S256x256.Idx) (q : dot_S256x8192_S8192x256_S256x256_1_0_0_1_n_n.contr.Idx) :
    (dot_S256x8192_S8192x256_S256x256_1_0_0_1_n_n.rhsIdx i q 1).val = (i 1).val := by
  unfold DotDims.rhsIdx
  rw [dif_neg (show ¬(1 : Fin S8192x256.rank) ∈ dot_S256x8192_S8192x256_S256x256_1_0_0_1_n_n.rhsBatch by decide), dif_pos (show (1 : Fin S8192x256.rank) ∈ dot_S256x8192_S8192x256_S256x256_1_0_0_1_n_n.rhsNonContracting by decide)]
  rfl
/-- So the record is a plain matrix product's. -/
theorem conv_dot_plain : Cert.Lib.PlainDot dot_S256x8192_S8192x256_S256x256_1_0_0_1_n_n :=
  ⟨rfl, rfl, conv_dot_l0, conv_dot_l1, conv_dot_r0, conv_dot_r1⟩

/-- The product of the narrowed matrix block with P, accumulated into zeros, at (p, q): the sum over the 8192
    contracted entries (narrowing is the identity on the extended reals). -/
theorem conv_product_apply (x0 : FVec Ideal S256x8192 .f32) (x1 : FVec Ideal S8192x256 .bf16) (p q : Fin 256) :
    matmul dot_S256x8192_S8192x256_S256x256_1_0_0_1_n_n none (truncf .bf16 x0 bitsLt_bf16_f32) x1 (constant S256x256 .f32 0x00000000#32) (ix2 p q)
      = ∑ j : Fin 8192, x0 (ix2 p j) * x1 (ix2 j q) := by
  simp only [matmul]
  rw [Ideal.matmul_constant_zero_apply]
  exact conv_dot_plain.sum_eq (fun i => x0 i) (fun i => x1 i) p q

/-- A column [256, 1] broadcast to [256, 256] reads, at (p, q), the column at p. -/
theorem conv_column_apply (v : FVec Ideal S256x1 .f32) (h : S256x1.Broadcasts S256x256) (p q : Fin 256) :
    broadcastTo S256x256 v h (ix2 p q) = v (ix2 p (0 : Fin 1)) := by
  refine broadcastTo_apply v h (ix2 p q) (ix2 p (0 : Fin 1)) fun ax => ?_
  match ax with
  | ⟨0, _⟩ => show p.val = if (256 : Nat) = 1 then 0 else p.val; rw [if_neg (by decide)]
  | ⟨1, _⟩ => show (0 : Nat) = if (1 : Nat) = 1 then 0 else q.val; rw [if_pos rfl]

/-- The stored block at (p, q): relu (rsqrt(d_p) * ((x0 · x1)_(p, q) + v8_(p, q))). -/
theorem conv_payload_apply (x0 : FVec Ideal S256x8192 .f32) (x1 : FVec Ideal S8192x256 .bf16) (v8 : FVec Ideal S256x256 .bf16)
    (x2 : FVec Ideal S256x1 .f32) (p q : Fin 256) :
    k2_pay1 (F := Ideal) x0 x1 v8 x2 (ix2 p q)
      = max (Ideal.rsqrt (x2 (ix2 p (0 : Fin 1))) * ((∑ j : Fin 8192, x0 (ix2 p j) * x1 (ix2 j q)) + v8 (ix2 p q))) 0 := by
  unfold k2_pay1
  rw [shapeCast_self, shapeCast_self, shapeCast_self]
  rw [maximumf_apply, mulf_apply, addf_apply, extf_apply, broadcast_apply, conv_column_apply]
  rw [conv_product_apply, Ideal.ofBits_def, Ideal.ofBits_zero_f32]
  rfl

/-- Where the matrix block and the column block are rows 256 n … 256 n + 255 of the matrix and of the column, the
    second operand is all of P, and the extra load starts at row 256 n of it, the stored block at (p, q) is the
    third pass's value at (256 n + p, q). -/
theorem conv_point_value (x0 : FVec Ideal S256x8192 .f32) (x1 : FVec Ideal S8192x256 .bf16) (x2 : FVec Ideal S256x1 .f32)
    (A : FVec Ideal SA .f32) (P : FVec Ideal SO .bf16) (Dg : FVec Ideal SD .f32) (n : ℕ) (hn : n < 32)
    (off : Fin 2 → ℕ) (hoff : off = ![256 * n, 0]) (inb : ∀ a, off a + S256x256.size a ≤ S8192x256.size a)
    (h0 : ∀ (p : Fin 256) (j : Fin 8192), x0 (ix2 p j) = A (ix2 ⟨256 * n + p.val, by omega⟩ j))
    (h1 : ∀ (j : Fin 8192) (q : Fin 256), x1 (ix2 j q) = P (ix2 j q))
    (h2 : ∀ p : Fin 256, x2 (ix2 p (0 : Fin 1)) = Dg (ix2 ⟨256 * n + p.val, by omega⟩ (0 : Fin 1)))
    (p q : Fin 256) :
    k2_pay1 (F := Ideal) x0 x1 (View.ld x1 (Rect.unit (s := S8192x256) off S256x256.size inb)) x2 (ix2 p q)
      = outArr A P Dg (ix2 ⟨256 * n + p.val, by omega⟩ q) := by
  subst hoff
  have e : (Rect.unit (s := S8192x256) ![256 * n, 0] S256x256.size inb).toLoadRect.idx (ix2 p q)
      = ix2 (⟨256 * n + p.val, by omega⟩ : Fin 8192) q := by
    funext a; apply Fin.ext
    match a with
    | ⟨0, _⟩ => show 256 * n + 1 * p.val = 256 * n + p.val; omega
    | ⟨1, _⟩ => show 0 + 1 * q.val = q.val; omega
  rw [conv_payload_apply]
  show max (_ * (_ + x1 ((Rect.unit (s := S8192x256) ![256 * n, 0] S256x256.size inb).toLoadRect.idx (ix2 p q)))) 0 = _
  rw [e, h1, h2, Finset.sum_congr rfl fun j _ => by rw [h0 p j, h1 j q]]
  rfl

/-! ## From the blocks to the array -/

/-- The windows' index maps over the 32 points: point t takes block (t, 0) of the matrix, of the column and of the
    result, and block (0, 0) — all — of P; its grid coordinate is t. -/
theorem conv_index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ (grid2.coords t 0).val = t.val :=
  (by decide +kernel : ∀ t : Fin grid2.N, _)

/-- There are 32 points. -/
theorem conv_point_lt (t : Fin cfg2.N) : t.val < 32 := by
  have hN : cfg2.N = 32 := N_2
  have := t.isLt
  omega

/-- The matrix block at point t is rows 256 t … 256 t + 255 of the matrix. -/
theorem conv_read_matrix (c : Dev nD) (t : Fin cfg2.N) (p : Fin 256) (j : Fin 8192) :
    (iblk2 V c 0 t : Vec Ideal S256x8192 .f32) (ix2 p j)
      = (V c main_arg1 : FVec Ideal SA .f32) (ix2 ⟨256 * t.val + p.val, by have := conv_point_lt t; omega⟩ j) := by
  obtain ⟨e0, e1, -⟩ := conv_index_facts t
  unfold iblk2
  rw [View.read_apply]
  show V c main_arg1 _ = V c main_arg1 _
  congr 1
  funext a; apply Fin.ext
  match a with
  | ⟨0, _⟩ => show win2_0.index t (0 : Fin 2) * 256 + 1 * p.val = 256 * t.val + p.val; rw [e0]; omega
  | ⟨1, _⟩ => show win2_0.index t (1 : Fin 2) * 8192 + 1 * j.val = j.val; rw [e1]; omega

/-- P's block at every point is all of P. -/
theorem conv_read_p (c : Dev nD) (t : Fin cfg2.N) (j : Fin 8192) (q : Fin 256) :
    (iblk2 V c 1 t : Vec Ideal S8192x256 .bf16) (ix2 j q) = (V c main_v1 : FVec Ideal SO .bf16) (ix2 j q) := by
  obtain ⟨-, -, e0, e1, -⟩ := conv_index_facts t
  unfold iblk2
  rw [View.read_apply]
  show V c main_v1 _ = V c main_v1 _
  congr 1
  funext a; apply Fin.ext
  match a with
  | ⟨0, _⟩ => show win2_1.index t (0 : Fin 2) * 8192 + 1 * j.val = j.val; rw [e0]; omega
  | ⟨1, _⟩ => show win2_1.index t (1 : Fin 2) * 256 + 1 * q.val = q.val; rw [e1]; omega

/-- The column block at point t is entries 256 t … 256 t + 255 of the column. -/
theorem conv_read_column (c : Dev nD) (t : Fin cfg2.N) (p : Fin 256) :
    (iblk2 V c 2 t : Vec Ideal S256x1 .f32) (ix2 p (0 : Fin 1))
      = (V c main_v0 : FVec Ideal SD .f32) (ix2 ⟨256 * t.val + p.val, by have := conv_point_lt t; omega⟩ (0 : Fin 1)) := by
  obtain ⟨-, -, -, -, e0, e1, -⟩ := conv_index_facts t
  unfold iblk2
  rw [View.read_apply]
  show V c main_v0 _ = V c main_v0 _
  congr 1
  funext a; apply Fin.ext
  match a with
  | ⟨0, _⟩ => show win2_2.index t (0 : Fin 2) * 256 + 1 * p.val = 256 * t.val + p.val; rw [e0]; omega
  | ⟨1, _⟩ => show win2_2.index t (1 : Fin 2) * 1 + 1 * 0 = 0; rw [e1]

/-- The result's block at point t, at (p, q), is the array's entry (256 t + p, q). -/
theorem conv_result_emb (t : Fin cfg2.N) (p q : Fin 256) :
    (((cfg2.win 3).blk t).view.emb (ix2 p q) : SO.Idx)
      = ix2 (⟨256 * t.val + p.val, by have := conv_point_lt t; omega⟩ : Fin 8192) q := by
  obtain ⟨-, -, -, -, -, -, e0, e1, -⟩ := conv_index_facts t
  funext a; apply Fin.ext
  match a with
  | ⟨0, _⟩ => show win2_3.index t (0 : Fin 2) * 256 + 1 * p.val = 256 * t.val + p.val; rw [e0]; omega
  | ⟨1, _⟩ => show win2_3.index t (1 : Fin 2) * 256 + 1 * q.val = q.val; rw [e1]; omega

/-- What point t writes back is block t of the third pass's value of the arrays the pass was entered with. -/
theorem conv_flushed_eq (c : Dev nD) (t : Fin cfg2.N) :
    (dat2 (F := Ideal) V c).flushed 3 t
      = ((cfg2.win 3).blk t).view.read (Elt Ideal) (outArr (V c main_arg1) (V c main_v1) (V c main_v0)) := by
  show (cfg2.win 3).cut (grid2.coords t) ((dat2 V c).after 3 t) = _
  rw [after2_3]
  unfold outsAt2
  rw [conv_piece (F := Ideal) c (grid2.coords t) (ms2_0 t) (hs2_0 t) (ms2_1 t) (hs2_1 t) (ms2_2 t) (hs2_2 t) (ms2_3 t) (hs2_3 t)
    (iblk2 V c 0 t) (iblk2 V c 1 t) (iblk2 V c 2 t)]
  obtain ⟨-, -, -, -, -, -, -, -, eg⟩ := conv_index_facts t
  funext j
  obtain ⟨p, q, rfl⟩ : ∃ (p : Fin 256) (q : Fin 256), j = ix2 p q := ⟨j 0, j 1, eq_ix2 j⟩
  rw [View.read_apply, conv_result_emb]
  exact conv_point_value (iblk2 V c 0 t) (iblk2 V c 1 t) (iblk2 V c 2 t) (V c main_arg1) (V c main_v1) (V c main_v0)
    t.val (conv_point_lt t) (k2_off1 (grid2.coords t)) (by rw [k2_off1_eq, eg]) (k2_off1_inb (grid2.coords t))
    (conv_read_matrix V c t) (conv_read_p V c t) (conv_read_column V c t) p q

/-- An entry of the result is in point t's block iff each coordinate is in the block's range on its axis. -/
theorem conv_mem_blk (t : Fin cfg2.N) (i : SO.Idx) :
    i ∈ ((cfg2.win 3).blk t).view.set ↔ ∀ a : Fin 2, win2_3.index t a * S256x256.size a ≤ (i a).val
      ∧ (i a).val < win2_3.index t a * S256x256.size a + S256x256.size a := by
  show i ∈ ((View.whole main_v2).slice (win2_3.rect t)).set ↔ _
  rw [View.set_slice_whole, Rect.mem_set_unit]
  exact Iff.rfl

/-- Row r of the result is written by point r / 256: the thirty-two blocks tile the array. -/
theorem conv_cover (i : SO.Idx) :
    ∃ t : Fin cfg2.N, (cfg2.win 3).flush t = true ∧ i ∈ ((cfg2.win 3).blk t).view.set := by
  have hN : cfg2.N = 32 := N_2
  have hi0 : (i 0).val < 8192 := (i 0).isLt
  have hi1 : (i 1).val < 256 := (i 1).isLt
  obtain ⟨t, ht⟩ : ∃ t : Fin cfg2.N, t.val = (i 0).val / 256 := ⟨⟨(i 0).val / 256, by omega⟩, rfl⟩
  obtain ⟨-, -, -, -, -, -, e0, e1, -⟩ := conv_index_facts t
  refine ⟨t, flush2_3 t, ?_⟩
  rw [conv_mem_blk]
  intro a
  match a with
  | ⟨0, _⟩ => show win2_3.index t (0 : Fin 2) * 256 ≤ (i 0).val ∧ (i 0).val < win2_3.index t (0 : Fin 2) * 256 + 256; omega
  | ⟨1, _⟩ => show win2_3.index t (1 : Fin 2) * 256 ≤ (i 1).val ∧ (i 1).val < win2_3.index t (1 : Fin 2) * 256 + 256; omega

/-- After the third pass the result array holds `outArr` of the arrays the pass was entered with. -/
theorem out_final (c : Dev nD) :
    (dat2 (F := Ideal) V c).arrAt 3 cfg2.N = outArr (V c main_arg1) (V c main_v1) (V c main_v0) :=
  (dat2 (F := Ideal) V c).arrAt_eq_of_cover 3 (outArr (V c main_arg1) (V c main_v1) (V c main_v0))
    (fun t _ => conv_flushed_eq V c t) conv_cover

end Cert.KernelIdeal.GcnValue

end
-- ==== Proof.KValue.lean ====
/-
  The result array after the three passes, as one function of the argument arrays. The contents at each boundary
  between passes are followed back to the launch memory: the first pass leaves the row sums of A in the column array;
  the second is entered with X, W as launched and that column, and leaves P; the third is entered with A as launched,
  P and the same column (no pass writes an array it only reads), and leaves the result.
-/
import proofs.«123797_j87935160418607_1_alg».proof.Proof.Gen.KernelIdeal.Frame
import proofs.«123797_j87935160418607_1_alg».proof.Proof.Spec
import proofs.«123797_j87935160418607_1_alg».proof.Proof.KDeg
import proofs.«123797_j87935160418607_1_alg».proof.Proof.KXw
import proofs.«123797_j87935160418607_1_alg».proof.Proof.KConv

noncomputable section

namespace Cert.KernelIdeal.GcnValue

open Idealize.ShloMosaic Idealize.ShloMosaic.TcCoe Idealize.SL.Sem
open Cert.KernelIdeal Cert.KernelIdeal.Gen Cert.Gcn

variable (m : (ℓ : Loc nD τ sig) → Buf (Elt Ideal) ℓ) (ρ : Dev nD → PrngReg)

/-- Entering the second pass, X is as launched. -/
theorem V1_main_arg0 (c : Dev nD) : V1 m ρ c main_arg0 = m ((c : Thread nD τ).loc main_arg0) :=
  W1_of_ne m ρ c main_arg0 (by decide)
/-- Entering the second pass, W is as launched. -/
theorem V1_main_arg2 (c : Dev nD) : V1 m ρ c main_arg2 = m ((c : Thread nD τ).loc main_arg2) :=
  W1_of_ne m ρ c main_arg2 (by decide)
/-- Entering the second pass, A is as launched (the first pass only reads it). -/
theorem V1_main_arg1 (c : Dev nD) : V1 m ρ c main_arg1 = m ((c : Thread nD τ).loc main_arg1) :=
  (W1_arr m ρ c 0).trans (((dat0 (V0 m ρ) c).arrAt_in 0 rfl _).trans (A_eq0 (V0 m ρ) c 0))
/-- Entering the second pass, the column holds the row sums of A. -/
theorem V1_main_v0 (c : Dev nD) : V1 m ρ c main_v0 = degArr (m ((c : Thread nD τ).loc main_arg1)) :=
  (W1_arr m ρ c 1).trans (deg_final (V0 m ρ) c)

/-- Entering the third pass, A is as launched. -/
theorem V2_main_arg1 (c : Dev nD) : V2 m ρ c main_arg1 = m ((c : Thread nD τ).loc main_arg1) :=
  (W2_of_ne m ρ c main_arg1 (by decide)).trans (V1_main_arg1 m ρ c)
/-- Entering the third pass, the column still holds the row sums of A (the second pass only reads it). -/
theorem V2_main_v0 (c : Dev nD) : V2 m ρ c main_v0 = degArr (m ((c : Thread nD τ).loc main_arg1)) :=
  ((W2_arr m ρ c 2).trans (((dat1 (V1 m ρ) c).arrAt_in 2 rfl _).trans (A_eq1 (V1 m ρ) c 2))).trans (V1_main_v0 m ρ c)
/-- Entering the third pass, the second pass's array holds P of the arguments. -/
theorem V2_main_v1 (c : Dev nD) : V2 m ρ c main_v1
    = xwpArr (m ((c : Thread nD τ).loc main_arg0)) (m ((c : Thread nD τ).loc main_arg2)) (degArr (m ((c : Thread nD τ).loc main_arg1))) := by
  refine ((W2_arr m ρ c 3).trans (xwp_final (V1 m ρ) c)).trans ?_
  rw [V1_main_arg0, V1_main_arg2, V1_main_v0]

/-- At the return the result array holds the three passes' function of the argument arrays. -/
theorem W3_main_v2 (c : Dev nD) : W3 m ρ c (Proc.devRef .tc main_v2)
    = kernelArr (m ((c : Thread nD τ).loc main_arg0)) (m ((c : Thread nD τ).loc main_arg1)) (m ((c : Thread nD τ).loc main_arg2)) := by
  refine ((W3_arr m ρ c 3).trans (out_final (V2 m ρ) c)).trans ?_
  rw [V2_main_arg1, V2_main_v1, V2_main_v0]
  rfl

end Cert.KernelIdeal.GcnValue

end
-- ==== Proof.lean ====
/-
  The graph convolution  relu (D^(-1/2) (A + I) D^(-1/2) (X W))  in three passes against the one-pass plain program.

  Over the extended reals the three-pass program computes, for row i and column c,
      relu (s_i * (sum_j a_ij * (s_j * p_jc) + s_i * p_ic)),   s_i = 1 / sqrt (sum_j a_ij),   p = X W,
  and the plain program  relu (sum_j ((s_i * (a_ij + [i = j])) * s_j) * p_jc).  Narrowing to bf16 is the identity, the
  matrix unit's product into zeros is the textbook sum, and a lane sum is the host's sum; what joins the two sides is
  distributivity, which holds because under the precondition every entry is a real number and every row sum is positive,
  so every s_i is a positive real (a row summing to zero would give s_i = +inf, where the two arrangements differ).
-/
import proofs.«123797_j87935160418607_1_alg».proof.Defs
import proofs.«123797_j87935160418607_1_alg».proof.Proof.Gen.Kernel
import proofs.«123797_j87935160418607_1_alg».proof.Proof.Gen.Kernel.Frame
import proofs.«123797_j87935160418607_1_alg».proof.Proof.Gen.KernelIdeal
import proofs.«123797_j87935160418607_1_alg».proof.Proof.Gen.KernelIdeal.Frame
import proofs.«123797_j87935160418607_1_alg».proof.Proof.Gen.ReferenceIdeal
import proofs.«123797_j87935160418607_1_alg».proof.Proof.Gen.ReferenceIdeal.Run
import proofs.«123797_j87935160418607_1_alg».proof.Proof.Gen.ReferenceIdeal.Read
import proofs.«123797_j87935160418607_1_alg».proof.Proof.Gen.Pre_finite_inputs
import proofs.«123797_j87935160418607_1_alg».proof.Proof.Spec
import proofs.«123797_j87935160418607_1_alg».proof.Proof.PreFacts
import proofs.«123797_j87935160418607_1_alg».proof.Proof.RefValue
import proofs.«123797_j87935160418607_1_alg».proof.Proof.KRun
import proofs.«123797_j87935160418607_1_alg».proof.Proof.KValue
import Idealize.ShloMosaic.Adequacy
import Idealize.ShloMosaic.Init

noncomputable section

namespace Cert.Proof

open Idealize.ShloMosaic Idealize.SL.Sem

/-- Both idealized programs end at the same array: the three passes' function of the arguments, which under the
    precondition is the one-pass function the plain program computes. -/
theorem algebraic : Cert.algebraic_KernelIdeal_ReferenceIdeal := by
  intro m ρ m' ρ' hpre hagree
  refine ⟨fun c => Cert.Gcn.kernelArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.GcnValue.W3_main_v2 m ρ c), (h c).2⟩)
      (Cert.KernelIdeal.GcnRun.run_named (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v17_eq, (hagree c).1, (hagree c).2.1, (hagree c).2.2]
    obtain ⟨hX, hA, hW, hd⟩ := Cert.Gcn.pre_facts _ _ _ (hpre c)
    exact (Cert.RefValue.ref_eq _ _ _).trans (Cert.Gcn.kernelArr_eq_refArr _ _ _ hX hA hW hd).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
